-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S2000x64 : S_.BroadcastsInDim S2000x64 (![] : Fin 0 → Fin S2000x64.rank)
  reducesTo_S2000x64_S_d0_1 : S2000x64.ReducesTo [0, 1] S_

variable [Facts]

def fn {F : FTy → Type} [FloatOps F] (main_arg0 : FVec F S16384x64 .f32) (main_arg1 : IVec S16384x2000 32) (main_arg2 : FVec F S64x64 .f32) (main_arg3 : FVec F S2000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2000x64 .f32 := Host.absf main_arg3
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  main_v13
-- ==== Kernel.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S16384x1 : Shape := ⟨2, ![16384, 1]⟩
abbrev S1024x64 : Shape := ⟨2, ![1024, 64]⟩
abbrev S1024x2000 : Shape := ⟨2, ![1024, 2000]⟩
abbrev S1024x1 : Shape := ⟨2, ![1024, 1]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x2000, .i32⟩
  | .hbm, ⟨2, _⟩ => ⟨S64x64, .f32⟩
  | .hbm, ⟨3, _⟩ => ⟨S2000x64, .f32⟩
  | .hbm, ⟨4, _⟩ => ⟨S64x64, .bf16⟩
  | .hbm, ⟨5, _⟩ => ⟨S2000x64, .bf16⟩
  | .hbm, ⟨6, _⟩ => ⟨S16384x1, .f32⟩
  | .local _ .vmem, ⟨0, _⟩ => ⟨S1024x64, .f32⟩
  | .local _ .vmem, ⟨1, _⟩ => ⟨S1024x64, .f32⟩
  | .local _ .vmem, ⟨2, _⟩ => ⟨S1024x2000, .i32⟩
  | .local _ .vmem, ⟨3, _⟩ => ⟨S1024x2000, .i32⟩
  | .local _ .vmem, ⟨4, _⟩ => ⟨S64x64, .bf16⟩
  | .local _ .vmem, ⟨5, _⟩ => ⟨S2000x64, .bf16⟩
  | .local _ .vmem, ⟨6, _⟩ => ⟨S1024x1, .f32⟩
  | .local _ .vmem, ⟨7, _⟩ => ⟨S1024x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2000x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1024x2000_S1024x2000_0_0 : ∀ a, (![0, 0] : Fin 2 → Nat) a + S1024x2000.size a ≤ S1024x2000.size a
  h_S1024x2000 : 0 < S1024x2000.numel
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x64_S64x64_S1024x64_1_0_0_1_n_n_wf : DotDims.WF S1024x64 S64x64 S1024x64 [1] [0] [0] [1] [] []
  dot_S1024x2000_S2000x64_S1024x64_1_0_0_1_n_n_wf : DotDims.WF S1024x2000 S2000x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2000.size a ≤ S16384x2000.size a
  hwx0_1 : ∀ i : grid0.Coords, EltTy.bits .i32 = 32 ∨ (Rect.block (s := S16384x2000) S1024x2000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S2000x64.size a
  hwx0_3 : ∀ i : grid0.Coords, EltTy.bits .bf16 = 32 ∨ (Rect.block (s := S2000x64) S2000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x2000_S2000x64_S1024x64_1_0_0_1_n_n : DotDims S1024x2000 S2000x64 S1024x64 where
  lhsContracting := [1]
  rhsContracting := [0]
  lhsNonContracting := [0]
  rhsNonContracting := [1]
  lhsBatch := []
  rhsBatch := []
  wf := dot_S1024x2000_S2000x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x2000, .i32⟩
  | .hbm, ⟨2, _⟩ => ⟨S64x64, .f32⟩
  | .hbm, ⟨3, _⟩ => ⟨S2000x64, .f32⟩
  | .hbm, ⟨4, _⟩ => ⟨S16384x64, .f32⟩
  | .hbm, ⟨5, _⟩ => ⟨S_, .i32⟩
  | .hbm, ⟨6, _⟩ => ⟨S16384x2000, .i32⟩
  | .hbm, ⟨7, _⟩ => ⟨S16384x2000, .i1⟩
  | .hbm, ⟨8, _⟩ => ⟨S16384x2000, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S16384x2000 : S_.BroadcastsInDim S16384x2000 (![] : Fin 0 → Fin S16384x2000.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x64_S64x64_S16384x64_1_0_0_1_n_n_wf : DotDims.WF S16384x64 S64x64 S16384x64 [1] [0] [0] [1] [] []
  dot_S16384x2000_S2000x64_S16384x64_1_0_0_1_n_n_wf : DotDims.WF S16384x2000 S2000x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x2000_S2000x64_S16384x64_1_0_0_1_n_n : DotDims S16384x2000 S2000x64 S16384x64 where
  lhsContracting := [1]
  rhsContracting := [0]
  lhsNonContracting := [0]
  rhsNonContracting := [1]
  lhsBatch := []
  rhsBatch := []
  wf := dot_S16384x2000_S2000x64_S16384x64_1_0_0_1_n_n_wf

class Facts : Prop extends Facts₀ where

variable [Facts]
-- ==== Proof.Spec.lean ====
/-
  The factorization-machine row score as ONE function of the four argument arrays, index by index on the extended reals.

  For a batch row r the two embeddings are summed per embedding coordinate d,
      s(r, d) = Σ_f x(r, f) · Wc(f, d)  +  Σ_k [cat(r, k) ≠ 0] · Wk(k, d),
  and the score is half the squared norm of that 64-vector:  out(r, 0) = ½ · Σ_d s(r, d)².
  The indicator [· ≠ 0] is the integer compare read as a number, 0 or 1.  Both programs compute exactly this term: the
  only arithmetic identities between them are 0 + a = a (an explicit zero starting value of a sum) and two spellings of
  the indicator, so no finiteness of the inputs is needed.
-/
import Idealize.ShloMosaic.PureOps.Ideal
import Idealize.ShloMosaic.PureOps.Ideal.Laws
import Idealize.ShloMosaic.Lib.ValueIdx

noncomputable section

namespace Cert.FM

open Idealize.ShloMosaic Idealize.ShloMosaic.ValueIdx

/-- The indicator of a nonzero 32-bit word, as an extended real: the compare's bit read unsigned. -/
def ind (x : BitVec 32) : EReal := FloatOps.uitofp (F := Ideal) .f32 (IntOp.cmpi .ne x 0#32)

/-- The same bit widened to a 32-bit word and read SIGNED is the same number: the widened word is 0 or 1, never negative. -/
theorem sitofp_extui_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : ∀ b : BitVec 1, (b.setWidth 32).toInt = (b.toNat : Int) := by decide
  rw [h b]; norm_cast

/-- The summed embedding of row `r` at coordinate `d`: the continuous fields through `wc`, plus the rows of `wk` that the
    nonzero categories of row `r` select. -/
def emb (x : (⟨2, ![16384, 64]⟩ : Shape).Idx → EReal) (cat : (⟨2, ![16384, 2000]⟩ : Shape).Idx → BitVec 32)
    (wc : (⟨2, ![64, 64]⟩ : Shape).Idx → EReal) (wk : (⟨2, ![2000, 64]⟩ : Shape).Idx → EReal)
    (r : Fin 16384) (d : Fin 64) : EReal :=
  (∑ f : Fin 64, x (ix2 r f) * wc (ix2 f d)) + ∑ k : Fin 2000, ind (cat (ix2 r k)) * wk (ix2 k d)

/-- The score array: half the squared norm of each row's summed embedding (the literal is the word of 0.5). -/
def score (x : (⟨2, ![16384, 64]⟩ : Shape).Idx → EReal) (cat : (⟨2, ![16384, 2000]⟩ : Shape).Idx → BitVec 32)
    (wc : (⟨2, ![64, 64]⟩ : Shape).Idx → EReal) (wk : (⟨2, ![2000, 64]⟩ : Shape).Idx → EReal) :
    (⟨2, ![16384, 1]⟩ : Shape).Idx → EReal := fun i =>
  Ideal.ofBits .f32 0x3F000000#32 * ∑ d : Fin 64, emb x cat wc wk (i 0) d * emb x cat wc wk (i 0) d

end Cert.FM

end
-- ==== Proof.RefIsSpec.lean ====
/-
  The reference's result, stage by stage, is the score function of the specification.

  Reading the last stage at an index (i0, i1) peels, outermost first: the product with the broadcast 0.5; the broadcast of
  the row sums along the kept unit axis; the row sum over the 64 embedding coordinates from the starting value 0; the
  square; the sum of the two einsums, each a sum over its contracted axis.  The index functions the stages compose are
  (i0, f), (f, d), (i0, k), (k, d): the four equations below.  What is left is 0 + a = a.
-/
import proofs.«100029_j7189775253944_1_alg».proof.Proof.Gen.ReferenceIdeal.Read
import proofs.«100029_j7189775253944_1_alg».proof.Proof.Spec

noncomputable section

namespace Cert.FM.Ref

open Cert.ReferenceIdeal Cert.ReferenceIdeal.Gen Cert.ReferenceIdeal.Read Idealize.ShloMosaic Idealize.ShloMosaic.ValueIdx

theorem lidx_cont (i : S16384x1.Idx) (d f : Fin 64) :
    lidx_main_v0 (idx_main_v7 (idx_main_v8 i) d) f = ix2 (i 0) f :=
  funext fun a => Fin.ext (by match a with | ⟨0, _⟩ => rfl | ⟨1, _⟩ => rfl)

theorem ridx_cont (i : S16384x1.Idx) (d f : Fin 64) :
    ridx_main_v0 (idx_main_v7 (idx_main_v8 i) d) f = ix2 f d :=
  funext fun a => Fin.ext (by match a with | ⟨0, _⟩ => rfl | ⟨1, _⟩ => rfl)

theorem lidx_cat (i : S16384x1.Idx) (d : Fin 64) (k : Fin 2000) :
    lidx_main_v4 (idx_main_v7 (idx_main_v8 i) d) k = ix2 (i 0) k :=
  funext fun a => Fin.ext (by match a with | ⟨0, _⟩ => rfl | ⟨1, _⟩ => rfl)

theorem ridx_cat (i : S16384x1.Idx) (d : Fin 64) (k : Fin 2000) :
    ridx_main_v4 (idx_main_v7 (idx_main_v8 i) d) k = ix2 k d :=
  funext fun a => Fin.ext (by match a with | ⟨0, _⟩ => rfl | ⟨1, _⟩ => rfl)

/-- The reference's mask stage at an index: the compare against the broadcast zero, read as a number. -/
theorem mask_apply (x1 : S16384x2000.Idx → BitVec 32) (j : S16384x2000.Idx) :
    val_main_v3 (F := Ideal) x1 j = Cert.FM.ind (x1 j) := by
  rw [val_main_v3_apply, val_main_v2_apply, val_main_v1_apply, val_main_c_apply]
  rfl

/-- The reference's last stage is the score function of its four arguments. -/
theorem ref_eq_score (x0 : S16384x64.Idx → EReal) (x1 : S16384x2000.Idx → BitVec 32) (x2 : S64x64.Idx → EReal)
    (x3 : S2000x64.Idx → EReal) :
    val_main_v10 (F := Ideal) x0 x1 x2 x3 = Cert.FM.score x0 x1 x2 x3 := by
  funext i
  rw [val_main_v10_apply, val_main_v9_apply, val_main_cst_0_apply, val_main_v8_apply, val_main_v7_apply,
    val_main_cst_apply]
  simp only [val_main_v6_apply, val_main_v5_apply, val_main_v0_apply, val_main_v4_apply, val_main_v3_apply,
    val_main_v2_apply, val_main_v1_apply, val_main_c_apply, lidx_cont, ridx_cont, lidx_cat, ridx_cat]
  simp only [mask_apply, Ideal.mulf_def, Ideal.addf_def, Ideal.ofBits_def, Ideal.ofBits_zero_f32, zero_add]
  rfl

end Cert.FM.Ref

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Payload.lean ====
/-
  One grid point's body, read at a row of its output block.

  The body takes a [1024, 64] block of continuous fields, the matching [1024, 2000] block of categories and the two whole
  weight tables, and stores a [1024, 1] column.  At row p the stored value is
      ½ · Σ_d ( Σ_f x(p, f) · Wc(f, d)  +  Σ_k [cat(p, k) ≠ 0] · Wk(k, d) )²:
  each matrix product into a zero accumulator is the sum over its contracted axis; the lane sum from the zero word is the
  sum over the 64 lanes; the cast of the [1024] vector of sums to a column keeps row p; narrowing a float is the identity
  on the extended reals; and the compare's bit, widened and read signed, is the indicator.
-/
import proofs.«100029_j7189775253944_1_alg».proof.Proof.Gen.KernelIdeal.Skeleton
import proofs.«100029_j7189775253944_1_alg».proof.Proof.Spec
import proofs.«100029_j7189775253944_1_alg».proof.Proof.LibColumn
import Idealize.ShloMosaic.Lib.Pipeline.Value
import Idealize.ShloMosaic.Lib.ValueIdx
import Idealize.ShloMosaic.PureOps.Ideal.Laws

noncomputable section

namespace Cert.FM.Body

open Cert.KernelIdeal Cert.KernelIdeal.Gen Idealize.ShloMosaic Idealize.ShloMosaic.ValueIdx

/-! ## The two matrix products at an index

The operand indices of a product at output (p, d) and contraction coordinate k are (p, k) and (k, d); the four axis
facts are stated once per product, at the literal axes. -/

theorem lhsA_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhsA_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhsA_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhsA_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem lhsB_0 (i : S1024x64.Idx) (q : dot_S1024x2000_S2000x64_S1024x64_1_0_0_1_n_n.contr.Idx) :
    (dot_S1024x2000_S2000x64_S1024x64_1_0_0_1_n_n.lhsIdx i q 0).val = (i 0).val := by
  unfold DotDims.lhsIdx
  rw [dif_neg (show ¬(0 : Fin S1024x2000.rank) ∈ dot_S1024x2000_S2000x64_S1024x64_1_0_0_1_n_n.lhsBatch by decide), dif_pos (show (0 : Fin S1024x2000.rank) ∈ dot_S1024x2000_S2000x64_S1024x64_1_0_0_1_n_n.lhsNonContracting by decide)]
  rfl
theorem lhsB_1 (i : S1024x64.Idx) (q : dot_S1024x2000_S2000x64_S1024x64_1_0_0_1_n_n.contr.Idx) :
    (dot_S1024x2000_S2000x64_S1024x64_1_0_0_1_n_n.lhsIdx i q 1).val = (q ⟨0, by decide⟩).val :=
  dot_S1024x2000_S2000x64_S1024x64_1_0_0_1_n_n.lhsIdx_val_of_single rfl i q
theorem rhsB_0 (i : S1024x64.Idx) (q : dot_S1024x2000_S2000x64_S1024x64_1_0_0_1_n_n.contr.Idx) :
    (dot_S1024x2000_S2000x64_S1024x64_1_0_0_1_n_n.rhsIdx i q 0).val = (q ⟨0, by decide⟩).val :=
  dot_S1024x2000_S2000x64_S1024x64_1_0_0_1_n_n.rhsIdx_val_of_single rfl i q
theorem rhsB_1 (i : S1024x64.Idx) (q : dot_S1024x2000_S2000x64_S1024x64_1_0_0_1_n_n.contr.Idx) :
    (dot_S1024x2000_S2000x64_S1024x64_1_0_0_1_n_n.rhsIdx i q 1).val = (i 1).val := by
  unfold DotDims.rhsIdx
  rw [dif_neg (show ¬(1 : Fin S2000x64.rank) ∈ dot_S1024x2000_S2000x64_S1024x64_1_0_0_1_n_n.rhsBatch by decide), dif_pos (show (1 : Fin S2000x64.rank) ∈ dot_S1024x2000_S2000x64_S1024x64_1_0_0_1_n_n.rhsNonContracting by decide)]
  rfl

/-- The continuous product at (p, d): the sum over the 64 fields. -/
theorem matmulA_apply {φ₁ φ₂ : FTy} (l : FVec Ideal S1024x64 φ₁) (r : FVec Ideal S64x64 φ₂) (p : Fin 1024) (d : Fin 64) :
    matmul dot_S1024x64_S64x64_S1024x64_1_0_0_1_n_n none l r (constant S1024x64 .f32 0x00000000#32) (ix2 p d)
      = ∑ k : Fin 64, l (ix2 p k) * r (ix2 k d) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 p d) ((contrEquiv1 dot_S1024x64_S64x64_S1024x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S1024x64_S64x64_S1024x64_1_0_0_1_n_n.rhsIdx (ix2 p d) ((contrEquiv1 dot_S1024x64_S64x64_S1024x64_1_0_0_1_n_n 64 rfl rfl).symm k) = ix2 k d := funext fun a => Fin.ext (by
    match a with
    | ⟨0, _⟩ => exact (rhsA_0 _ _).trans hk
    | ⟨1, _⟩ => exact rhsA_1 _ _)
  rw [el, er]

/-- The categorical product at (p, d): the sum over the 2000 categories. -/
theorem matmulB_apply {φ₁ φ₂ : FTy} (l : FVec Ideal S1024x2000 φ₁) (r : FVec Ideal S2000x64 φ₂) (p : Fin 1024) (d : Fin 64) :
    matmul dot_S1024x2000_S2000x64_S1024x64_1_0_0_1_n_n none l r (constant S1024x64 .f32 0x00000000#32) (ix2 p d)
      = ∑ k : Fin 2000, l (ix2 p k) * r (ix2 k d) := by
  simp only [matmul]
  rw [Ideal.matmul_constant_zero_apply, ← Equiv.sum_comp (contrEquiv1 dot_S1024x2000_S2000x64_S1024x64_1_0_0_1_n_n 2000 rfl rfl).symm]
  refine Finset.sum_congr rfl fun k _ => ?_
  have hk := contrEquiv1_symm_val dot_S1024x2000_S2000x64_S1024x64_1_0_0_1_n_n 2000 rfl rfl k
  have el : dot_S1024x2000_S2000x64_S1024x64_1_0_0_1_n_n.lhsIdx (ix2 p d) ((contrEquiv1 dot_S1024x2000_S2000x64_S1024x64_1_0_0_1_n_n 2000 rfl rfl).symm k) = ix2 p k := funext fun a => Fin.ext (by
    match a with
    | ⟨0, _⟩ => exact lhsB_0 _ _
    | ⟨1, _⟩ => exact (lhsB_1 _ _).trans hk)
  have er : dot_S1024x2000_S2000x64_S1024x64_1_0_0_1_n_n.rhsIdx (ix2 p d) ((contrEquiv1 dot_S1024x2000_S2000x64_S1024x64_1_0_0_1_n_n 2000 rfl rfl).symm k) = ix2 k d := funext fun a => Fin.ext (by
    match a with
    | ⟨0, _⟩ => exact (rhsB_0 _ _).trans hk
    | ⟨1, _⟩ => exact rhsB_1 _ _)
  rw [el, er]

/-! ## The body's stored value at a row -/

/-- Row `p`'s summed embedding at coordinate `d`, from the blocks the body loads. -/
def rowEmb (v0 : S1024x64.Idx → EReal) (v2 : S64x64.Idx → EReal) (v5 : S1024x2000.Idx → BitVec 32)
    (v11 : S2000x64.Idx → EReal) (p : Fin 1024) (d : Fin 64) : EReal :=
  (∑ f : Fin 64, v0 (ix2 p f) * v2 (ix2 f d)) + ∑ k : Fin 2000, Cert.FM.ind (v5 (ix2 p k)) * v11 (ix2 k d)

/-- The lane sum of a [1024, 64] value from the zero word, at row `p`: the sum of the row's 64 entries. -/
theorem laneSum_apply (src : FVec Ideal S1024x64 .f32) (hφ : FKind.Formats .f32)
    (hacc : (0x00000000#32 : BitVec 32) = 0x00000000#32) (p : Fin 1024) :
    multiReduction .add [1] S1024 src 0x00000000#32 reduces_S1024x64_S1024 hφ hacc (ix1 p) = ∑ d : Fin 64, src (ix2 p d) :=
  Cert.Lib.Column.rowSum_apply src _ reduces_S1024x64_S1024 hφ hacc p

/-- The stored column at row `p`: half the squared norm of the row's summed embedding. -/
theorem pay_apply (v0 : Vec Ideal S1024x64 .f32) (v2 : Vec Ideal S64x64 .bf16) (v5 : Vec Ideal S1024x2000 .i32)
    (v11 : Vec Ideal S2000x64 .bf16) (p : Fin 1024) (u : Fin 1) :
    k0_pay1 (F := Ideal) v0 v2 v5 v11 (ix2 p u)
      = Ideal.ofBits .f32 0x3F000000#32 * ∑ d : Fin 64, rowEmb v0 v2 v5 v11 p d * rowEmb v0 v2 v5 v11 p d := by
  unfold k0_pay1
  rw [mulf_apply, broadcast_apply, Cert.Lib.Column.shapeCast_a_a1_apply, laneSum_apply]
  have hm : ∀ k : Fin 2000,
      (truncf .bf16 (sitofp .f32 (extui 32 (cmpi .ne v5 (broadcast S1024x2000 0#32)) natLt_1_32)) bitsLt_bf16_f32 :
        FVec Ideal S1024x2000 .bf16) (ix2 p k) = Cert.FM.ind (v5 (ix2 p k)) :=
    fun k => Cert.FM.sitofp_extui_bit _
  refine congrArg (_ * ·) (Finset.sum_congr rfl fun d _ => ?_)
  rw [mulf_apply, addf_apply, matmulA_apply, matmulB_apply]
  simp only [hm]
  simp only [truncf_apply, shapeCast_self]
  rfl

end Cert.FM.Body

end
-- ==== Proof.KernelValue.lean ====
/-
  The kernel's result array after the run is the score function of the four arguments.

  The grid has 16 points; point t reads rows 1024·t … 1024·t + 1023 of the continuous fields and of the categories, both
  weight tables whole (the region finds them narrowed by the host, which on the extended reals changes nothing), and
  writes rows 1024·t … 1024·t + 1023 of the [16384, 1] result.  So what point t writes back is block t of the score
  function, and the 16 blocks tile the result: row r lies in the block of point r / 1024.
-/
import proofs.«100029_j7189775253944_1_alg».proof.Proof.Gen.KernelIdeal.Value
import proofs.«100029_j7189775253944_1_alg».proof.Proof.Payload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.FM.Kernel

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The first weight table as the region finds it: the host's narrowing of the argument, the same extended reals. -/
theorem V_wc (c : Dev nD) : @Eq (S64x64.Idx → EReal) (V m c main_v0) (m ((c : Thread nD τ).loc main_arg2)) := by
  have e : @Eq (S64x64.Idx → EReal) (V m c main_v0)
      (truncf (F := Ideal) .bf16 (show FVec Ideal S64x64 .f32 from m ((c : Thread nD τ).loc main_arg2)) bitsLt_bf16_f32) := by
    dsimp only [Gen.V, Gen.hostOps0]; after_results
  exact e.trans rfl

/-- The second weight table likewise. -/
theorem V_wk (c : Dev nD) : @Eq (S2000x64.Idx → EReal) (V m c main_v1) (m ((c : Thread nD τ).loc main_arg3)) := by
  have e : @Eq (S2000x64.Idx → EReal) (V m c main_v1)
      (truncf (F := Ideal) .bf16 (show FVec Ideal S2000x64 .f32 from m ((c : Thread nD τ).loc main_arg3)) bitsLt_bf16_f32) := by
    dsimp only [Gen.V, Gen.hostOps0]; after_results
  exact e.trans rfl

/-! ## The index maps, decided over the 16 points -/

/-- The two row-blocked inputs move with the output along axis 0 and sit at block 0 of axis 1; the two tables sit at
    block (0, 0); the output's block index is (t, 0) with t ≤ 15. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 15 ∧ win0_4.index t (1 : Fin 2) = 0 :=
  (by decide +kernel : ∀ t : Fin grid0.N, _)

/-- Every row block of the result is some point's. -/
theorem idx_onto : ∀ q : Fin 16, ∃ t : Fin cfg0.N, win0_4.index t = ![q.val, 0] :=
  (by decide +kernel : ∀ q : Fin 16, ∃ t : Fin grid0.N, win0_4.index t = ![q.val, 0])

/-! ## Each input block read off its argument -/

/-- The block of continuous fields at point `t`, entry (p, f), is the argument's entry in row 1024·b + p, where b is
    the output's block index at `t`. -/
theorem xblk_apply (c : Dev nD) (t : Fin cfg0.N) (p : Fin 1024) (f : Fin 64) (k : S16384x64.Idx)
    (hk0 : (k 0).val = win0_4.index t (0 : Fin 2) * 1024 + p.val) (hk1 : (k 1).val = f.val) :
    (iblk m c 0 t : Vec Ideal S1024x64 .f32) (ix2 p f) = (m ((c : Thread nD τ).loc main_arg0) : S16384x64.Idx → EReal) k := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = (k 0).val; rw [e0, hk0]; omega
  | ⟨1, _⟩ => show win0_0.index t (1 : Fin 2) * 64 + 1 * f.val = (k 1).val; rw [e1, hk1]; omega

/-- The block of categories at point `t`, entry (p, j), likewise. -/
theorem catblk_apply (c : Dev nD) (t : Fin cfg0.N) (p : Fin 1024) (j : Fin 2000) (k : S16384x2000.Idx)
    (hk0 : (k 0).val = win0_4.index t (0 : Fin 2) * 1024 + p.val) (hk1 : (k 1).val = j.val) :
    (iblk m c 1 t : Vec Ideal S1024x2000 .i32) (ix2 p j) = (m ((c : Thread nD τ).loc main_arg1) : S16384x2000.Idx → BitVec 32) k := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 1024 + 1 * p.val = (k 0).val; rw [e0, hk0]; omega
  | ⟨1, _⟩ => show win0_1.index t (1 : Fin 2) * 2000 + 1 * j.val = (k 1).val; rw [e1, hk1]; omega

/-- The first table's block at any point is the whole argument table. -/
theorem wcblk_eq (c : Dev nD) (t : Fin cfg0.N) :
    (iblk m c 2 t : Vec Ideal S64x64 .bf16) = (m ((c : Thread nD τ).loc main_arg2) : S64x64.Idx → EReal) := by
  obtain ⟨-, -, -, -, e0, e1, -⟩ := idx_facts t
  funext y
  unfold iblk
  rw [View.read_apply]
  show V m c main_v0 _ = _
  rw [V_wc]
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The second table's block at any point is the whole argument table. -/
theorem wkblk_eq (c : Dev nD) (t : Fin cfg0.N) :
    (iblk m c 3 t : Vec Ideal S2000x64 .bf16) = (m ((c : Thread nD τ).loc main_arg3) : S2000x64.Idx → EReal) := by
  obtain ⟨-, -, -, -, -, -, e0, e1, -⟩ := idx_facts t
  funext y
  unfold iblk
  rw [View.read_apply]
  show V m c main_v1 _ = _
  rw [V_wk]
  congr 1
  funext a
  apply Fin.ext
  match a with
  | ⟨0, _⟩ => show win0_3.index t (0 : Fin 2) * 2000 + 1 * (y 0).val = (y 0).val; rw [e0]; omega
  | ⟨1, _⟩ => show win0_3.index t (1 : Fin 2) * 64 + 1 * (y 1).val = (y 1).val; rw [e1]; omega

/-! ## One block of the score function from the blocks a point loads -/

/-- If a [1024, 64] block and a [1024, 2000] block hold rows 1024·b … of `x` and `cat`, the body's column at row p is
    the score function at row 1024·b + p. -/
theorem body_is_score_block (x : S16384x64.Idx → EReal) (cat : S16384x2000.Idx → BitVec 32)
    (wc : S64x64.Idx → EReal) (wk : S2000x64.Idx → EReal)
    (v0 : Vec Ideal S1024x64 .f32) (v5 : Vec Ideal S1024x2000 .i32) (b : ℕ) (hb : b ≤ 15)
    (h0 : ∀ (p : Fin 1024) (f : Fin 64), v0 (ix2 p f) = x (ix2 (⟨b * 1024 + p.val, by omega⟩ : Fin 16384) f))
    (h5 : ∀ (p : Fin 1024) (j : Fin 2000), v5 (ix2 p j) = cat (ix2 (⟨b * 1024 + p.val, by omega⟩ : Fin 16384) j))
    (y : S1024x1.Idx) (i : S16384x1.Idx) (hi : (i 0).val = b * 1024 + (y 0).val) :
    k0_pay1 (F := Ideal) v0 wc v5 wk y = Cert.FM.score x cat wc wk i := by
  obtain ⟨p, u, rfl⟩ : ∃ (p : Fin 1024) (u : Fin 1), y = ix2 p u := ⟨y 0, y 1, eq_ix2 y⟩
  rw [Cert.FM.Body.pay_apply]
  have hr : i 0 = (⟨b * 1024 + p.val, by omega⟩ : Fin 16384) := Fin.ext hi
  unfold Cert.FM.score
  refine congrArg (_ * ·) (Finset.sum_congr rfl fun d _ => ?_)
  have he : Cert.FM.Body.rowEmb v0 wc v5 wk p d = Cert.FM.emb x cat wc wk (i 0) d := by
    unfold Cert.FM.Body.rowEmb Cert.FM.emb
    rw [hr]
    simp only [h0, h5]
  rw [he]

/-! ## What a point writes back, the cover, the final array, the run -/

/-- WHAT POINT `t` WRITES BACK is block `t` of the score function of the four arguments. -/
theorem flushed_eq (c : Dev nD) (t : Fin cfg0.N) :
    (dats m 0 c).flushed 4 t = ((cfg0.win 4).blk t).view.read (Elt Ideal)
      (Cert.FM.score (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz]
  simp only [View.ld_unit_zero (S := S1024x64) hz, View.ld_unit_zero (S := S64x64) hz,
    View.ld_unit_zero (S := S1024x2000) hz, View.ld_unit_zero (S := S2000x64) hz]
  rw [wcblk_eq, wkblk_eq]
  obtain ⟨-, -, -, -, -, -, -, -, hle, e41⟩ := idx_facts t
  funext y
  refine body_is_score_block (m ((c : Thread nD τ).loc main_arg0)) (m ((c : Thread nD τ).loc main_arg1)) (m ((c : Thread nD τ).loc main_arg2)) (m ((c : Thread nD τ).loc main_arg3))
    (iblk m c 0 t) (iblk m c 1 t) (win0_4.index t (0 : Fin 2)) hle
    (fun p f => xblk_apply m c t p f _ rfl rfl) (fun p j => catblk_apply m c t p j _ rfl rfl) y _ ?_
  show win0_4.index t (0 : Fin 2) * 1024 + 1 * (y 0).val = _
  omega

/-- An index of the result is in point `t`'s block iff each coordinate is in the block's range on its axis. -/
theorem mem_blk (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- The 16 blocks tile the result: row r is in the block of the point whose block index is r / 1024. -/
theorem cover (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- THE RESULT ARRAY after the run is the score function of the four arguments. -/
theorem final (c : Dev nD) : (dats m 0 c).arrAt 4 cfg0.N
    = Cert.FM.score (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- The kernel's run, read: the result at the score function, the arguments unchanged. -/
theorem run : θ_run defs (onTc (τ := τ) (main (F := Ideal))) ⟨m, fun _ => 0, ρ⟩ fun r => ∀ c : Dev nD,
      r.2.mem ((c : Thread nD τ).loc main_v2)
        = Cert.FM.score (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.FM.Kernel

end
-- ==== Proof.lean ====
/-
  A factorization-machine layer: for each of 16384 batch rows, the 64 continuous fields are embedded through a 64 × 64
  table and the nonzero entries of a 2000-wide multi-hot category row select rows of a 2000 × 64 table; the two sums are
  added per embedding coordinate and the row's score is half the squared norm of the result,
      out(r, 0) = ½ · Σ_d ( Σ_f x(r, f) · Wc(f, d) + Σ_k [cat(r, k) ≠ 0] · Wk(k, d) )².

  The kernel computes this 1024 rows at a time over a grid of 16 points, with both tables narrowed to a shorter float
  format by the host before the launch and both products taken into zero accumulators; the reference is two einsums,
  a square, a row sum from 0 and a product with 0.5.  On the extended reals narrowing a float is the identity, a
  product into a zero accumulator and an einsum are the same sum over the contracted axis, and the indicator read
  signed after widening or read unsigned is the same 0 or 1.  So both programs end at ONE function of the four
  arguments (`Cert.FM.score`, Proof/Spec.lean): the kernel by Proof/Payload.lean (one grid point's column at a row) and
  Proof/KernelValue.lean (the 16 blocks tile the result), the reference by Proof/RefIsSpec.lean (its stages read at an
  index).  Nothing needs the inputs finite: the only identities used are 0 + a = a and re-indexings of finite sums.

  The three frames are the generated ones (the reference's is its run with the result dropped); the idealization
  rewrote no operation, so there is nothing to preserve.
-/
import proofs.«100029_j7189775253944_1_alg».proof.Defs
import proofs.«100029_j7189775253944_1_alg».proof.Proof.Gen.Kernel
import proofs.«100029_j7189775253944_1_alg».proof.Proof.Gen.Kernel.Skeleton
import proofs.«100029_j7189775253944_1_alg».proof.Proof.Gen.Kernel.Launch
import proofs.«100029_j7189775253944_1_alg».proof.Proof.Gen.Kernel.Points
import proofs.«100029_j7189775253944_1_alg».proof.Proof.Gen.Kernel.Frame
import proofs.«100029_j7189775253944_1_alg».proof.Proof.Gen.KernelIdeal
import proofs.«100029_j7189775253944_1_alg».proof.Proof.Gen.KernelIdeal.Skeleton
import proofs.«100029_j7189775253944_1_alg».proof.Proof.Gen.KernelIdeal.Launch
import proofs.«100029_j7189775253944_1_alg».proof.Proof.Gen.KernelIdeal.Points
import proofs.«100029_j7189775253944_1_alg».proof.Proof.Gen.KernelIdeal.Frame
import proofs.«100029_j7189775253944_1_alg».proof.Proof.Gen.ReferenceIdeal
import proofs.«100029_j7189775253944_1_alg».proof.Proof.Gen.Pre_finite_inputs
import proofs.«100029_j7189775253944_1_alg».proof.Proof.Gen.KernelIdeal.Value
import proofs.«100029_j7189775253944_1_alg».proof.Proof.Gen.ReferenceIdeal.Run
import proofs.«100029_j7189775253944_1_alg».proof.Proof.Gen.ReferenceIdeal.Read
import proofs.«100029_j7189775253944_1_alg».proof.Proof.Spec
import proofs.«100029_j7189775253944_1_alg».proof.Proof.RefIsSpec
import proofs.«100029_j7189775253944_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the score function of the (agreeing) arguments in their result arrays. -/
theorem algebraic : Cert.algebraic_KernelIdeal_ReferenceIdeal := by
  intro m ρ m' ρ' _ hagree
  refine ⟨fun c => Cert.FM.score (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.FM.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.FM.Ref.ref_eq_score, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
